-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) (main_arg1 : FVec F S4096x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  main_v8
-- ==== Kernel.lean ====
abbrev S4096x8192 : Shape := ⟨2, ![4096, 8192]⟩
abbrev S4096x1 : Shape := ⟨2, ![4096, 1]⟩
abbrev S128x8192 : Shape := ⟨2, ![128, 8192]⟩
abbrev S128x1 : Shape := ⟨2, ![128, 1]⟩
abbrev S128 : Shape := ⟨1, ![128]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S4096x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S128x1, .f32⟩
  | .local _ .vmem, ⟨5, _⟩ => ⟨S128x1, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x8192_S128x8192_0_0 : ∀ a, (![0, 0] : Fin 2 → Nat) a + S128x8192.size a ≤ S128x8192.size a
  h_S128x8192 : 0 < S128x8192.numel
  reduces_S128x8192_S128 : S128x8192.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  reducesTo_S4096x1_S_d0_1 : S4096x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S4096x8192.size a
  hwx0_0 : ∀ i : grid0.Coords, EltTy.bits .f32 = 32 ∨ (Rect.block (s := S4096x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S4096x8192.size a
  hwx0_1 : ∀ i : grid0.Coords, EltTy.bits .f32 = 32 ∨ (Rect.block (s := S4096x8192) S128x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S4096x1.size a
  hwx0_2 : ∀ i : grid0.Coords, EltTy.bits .f32 = 32 ∨ (Rect.block (s := S4096x1) S128x1.size (cc0_transform_2 i) (hinb0_2 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S_ : Shape := ⟨0, ![]⟩
abbrev S4096 : Shape := ⟨1, ![4096]⟩

abbrev nBuf : Space → Nat
  | .hbm => 40
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096x8192, .f32⟩
  | .hbm, ⟨7, _⟩ => ⟨S_, .f32⟩
  | .hbm, ⟨8, _⟩ => ⟨S4096, .f32⟩
  | .hbm, ⟨9, _⟩ => ⟨S4096x8192, .f32⟩
  | .hbm, ⟨10, _⟩ => ⟨S_, .f32⟩
  | .hbm, ⟨11, _⟩ => ⟨S4096, .f32⟩
  | .hbm, ⟨12, _⟩ => ⟨S4096x8192, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_cst_4 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_5 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_v24 : Ref sig .tc := ⟨.hbm, 35, rfl⟩
abbrev main_cst_8 : Ref sig .tc := ⟨.hbm, 36, rfl⟩
abbrev main_v25 : Ref sig .tc := ⟨.hbm, 37, rfl⟩
abbrev main_cst_9 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  reducesTo_S4096x8192_S4096_d1 : S4096x8192.ReducesTo [1] S4096
  h_S_ : 0 < S_.numel
  bcast_S_S4096 : S_.BroadcastsInDim S4096 (![] : Fin 0 → Fin S4096.rank)
  reducesTo_S4096_S_d0 : S4096.ReducesTo [0] S_

variable [Facts₀]

class Facts : Prop extends Facts₀ where

variable [Facts]
-- ==== Proof.RowLoss.lean ====
/-
  The quantity both programs compute, stated once.

  A row has entries x_k, y_k for k < 8192. Write n = 8192 and
    Sx = Σ x_k,  Sy = Σ y_k,  Sxy = Σ x_k·y_k,  Sxx = Σ x_k²,  Syy = Σ y_k².
  The row's loss is  1 − (n·Sxy − Sx·Sy) / √((n·Sxx − Sx²)·(n·Syy − Sy²)),  one minus the row's correlation
  coefficient, read on the extended reals: the quotient and the square root are the extended-real ones, with their
  conventions at 0, at the infinities and at negative arguments, so the formula is a total function and no hypothesis
  on the entries is needed to compare two evaluations of it. The result is the mean of the 4096 rows' losses: their sum
  divided by 4096.

  Two programs that evaluate this formula can differ only in how they lay the five sums out (a lane reduction of a
  128-row block against a reduction of the whole array; a [4096, 1] column against a [4096] vector). Addition of
  extended reals is commutative and associative, so a sum over an index set is one value however the set is
  enumerated; the lemmas below re-index such sums over the coordinates of a rank-1 and of a one-column rank-2 index.
-/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Pearson

/-- The loss as a function of a row's five sums Sx, Sy, Sxy, Sxx, Syy: one minus the correlation coefficient, with
    n = 8192 (the word 0x46000000) and 1 (the word 0x3F800000) as the extended reals those words denote. -/
def lossOfSums (sx sy sxy sxx syy : EReal) : EReal :=
  Ideal.ofBits .f32 0x3F800000#32
    - Ideal.div
        (Ideal.ofBits .f32 0x46000000#32 * sxy - sx * sy)
        (Ideal.sqrt
          ((Ideal.ofBits .f32 0x46000000#32 * sxx - sx * sx)
            * (Ideal.ofBits .f32 0x46000000#32 * syy - sy * sy)))

/-- One row's loss from its entries. -/
def rowLossOf (x y : Fin 8192 → EReal) : EReal :=
  lossOfSums (∑ k, x k) (∑ k, y k) (∑ k, x k * y k) (∑ k, x k * x k) (∑ k, y k * y k)

/-- Row `r`'s loss, of the two [4096, 8192] arrays. -/
def rowLoss (a0 a1 : FVec Ideal ⟨2, ![4096, 8192]⟩ .f32) (r : Fin 4096) : EReal :=
  rowLossOf (fun k => a0 (ix2 r k)) (fun k => a1 (ix2 r k))

/-- The mean of the rows' losses: their sum divided by 4096 (the word 0x45800000). -/
def meanLoss (a0 a1 : FVec Ideal ⟨2, ![4096, 8192]⟩ .f32) : EReal :=
  Ideal.div (∑ r : Fin 4096, rowLoss a0 a1 r) (Ideal.ofBits .f32 0x45800000#32)

/-! ## Sums over a vector's and over a column's indices -/

/-- A rank-1 index is its one coordinate. -/
def idxEquiv1 {n : Nat} : (⟨1, ![n]⟩ : Shape).Idx ≃ Fin n where
  toFun i := i 0
  invFun a := ix1 a
  left_inv i := (eq_ix1 i).symm
  right_inv _ := rfl

/-- A sum over a vector's indices is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over a one-column array's indices is the sum over its rows. -/
theorem sum_idx_col {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

/-! ## A vector viewed as a column -/

/-- An `[a]` vector cast to an `[a, 1]` column reads, at `(i, u)`, the vector at `i`: the two row-major positions
    are `i` and `i · 1 + u` with `u = 0`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Pearson

end
-- ==== Proof.BlockLoss.lean ====
/-
  What the kernel's body computes from one pair of blocks.

  At a grid point the body holds a [128, 8192] block of each argument. It reduces each of x, y, x·y, x·x and y·y along
  the lanes (the 8192 columns), views each [128] vector of sums as a [128, 1] column, and evaluates the row formula
  column-wise. So the [128, 1] value it stores holds, at row `p`, the loss of row `p` of the two blocks. A lane
  reduction into the zero accumulator, read on the extended reals, is the plain sum over the lane coordinate.
-/
import proofs.«162491_j35304631173303_1_alg».proof.Proof.Gen.KernelIdeal.Skeleton
import proofs.«162491_j35304631173303_1_alg».proof.Proof.RowLoss

noncomputable section

open Idealize.ShloMosaic Idealize.ShloMosaic.ValueIdx

namespace Cert.KernelIdeal.Block

open Cert.KernelIdeal Cert.KernelIdeal.Gen Cert.Pearson

/-- The lane reduction of a [128, 8192] block into the zero accumulator, read at row `p`. -/
def laneSum (src : FVec Ideal S128x8192 .f32) (p : Fin 128) : EReal :=
  multiReduction .add [1] S128 src 0x00000000#32 reduces_S128x8192_S128 (.inl rfl) rfl (ix1 p)

/-- It is the sum of the row's entries. -/
theorem laneSum_eq (src : FVec Ideal S128x8192 .f32) (p : Fin 128) : laneSum src p = ∑ k : Fin 8192, src (ix2 p k) := by
  unfold laneSum
  refine (Ideal.multiReduction_add_single src 0x00000000#32 reduces_S128x8192_S128 (.inl rfl) rfl (ix1 p)).trans ?_
  refine Finset.sum_congr rfl fun k _ => ?_
  exact congrArg src (funext fun a => Fin.ext (by match a with | ⟨0, _⟩ => rfl | ⟨1, _⟩ => rfl))

/-- The elementwise square root read at an index. -/
theorem sqrt_apply {s : Shape} (v : FVec Ideal s .f32) (i : s.Idx) : sqrt v i = Ideal.sqrt (v i) := rfl

/-- The stored column holds, at row `p`, the loss formula at the five lane sums of the two blocks' row `p`. -/
theorem pay_sums (x0 x1 : FVec Ideal S128x8192 .f32) (p : Fin 128) (u : Fin 1) :
    k0_pay1 (F := Ideal) x0 x1 (ix2 p u)
      = lossOfSums (laneSum x0 p) (laneSum x1 p) (laneSum (mulf x0 x1) p) (laneSum (mulf x0 x0) p) (laneSum (mulf x1 x1) p) := by
  unfold k0_pay1 lossOfSums
  simp only [subf_apply, divf_apply, mulf_apply, sqrt_apply, broadcast_apply, shapeCast_a_a1_apply, Ideal.ofBits_def]
  rfl

/-- So it holds the loss of row `p` of the two blocks. -/
theorem pay_apply (x0 x1 : FVec Ideal S128x8192 .f32) (p : Fin 128) (u : Fin 1) :
    k0_pay1 (F := Ideal) x0 x1 (ix2 p u) = rowLossOf (fun k => x0 (ix2 p k)) (fun k => x1 (ix2 p k)) := by
  rw [pay_sums]
  unfold rowLossOf
  simp only [laneSum_eq, mulf_apply]

end Cert.KernelIdeal.Block

end
-- ==== Proof.KernelColumn.lean ====
/-
  The column the kernel writes.

  The grid has 32 points. Point `t` fetches rows 128·t … 128·t + 127 of each argument (all 8192 columns) and writes back
  rows 128·t … 128·t + 127 of the [4096, 1] result, each holding the loss of its own row of the two fetched blocks. Row
  `p` of the block at point `t` is row 128·t + p of the array, so what point `t` writes back is its block of ONE
  column: the one holding, at row `r`, the loss of row `r` of the two argument arrays. Row `r` lies in the block of
  point r / 128, so the 32 blocks cover the column, and after the run the result array is that column.
-/
import proofs.«162491_j35304631173303_1_alg».proof.Proof.Gen.KernelIdeal.Frame
import proofs.«162491_j35304631173303_1_alg».proof.Proof.BlockLoss
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Rows

open Cert.KernelIdeal Cert.KernelIdeal.Gen Cert.KernelIdeal.Block Cert.Pearson

variable (m : (ℓ : Loc nD τ sig) → Buf (Elt Ideal) ℓ) (ρ : Dev nD → PrngReg)

theorem zero_off : (![0, 0] : Fin 2 → Nat) = fun _ => 0 := funext fun a => by fin_cases a <;> rfl

/-- The column of the rows' losses, of the argument arrays as the region finds them. -/
abbrev lossColumn (c : Dev nD) : Buf (Elt Ideal) ((c : Thread nD τ).loc main_v0) :=
  fun i => rowLoss (V m c main_arg0) (V m c main_arg1) (i 0)

/-- The block index maps over the grid: both inputs' row-block index is the output's, which is the point's number; the
    column-block index is 0 throughout. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (0 : Fin 2) = t.val
    ∧ win0_2.index t (1 : Fin 2) = 0 :=
  (by decide +kernel : ∀ t : Fin grid0.N, _)

/-- A stored column whose blocks' row `j 0` is row `r` of the arrays holds, at `j`, row `r`'s loss. -/
theorem block_row (x0 x1 : FVec Ideal S128x8192 .f32) (a0 a1 : FVec Ideal S4096x8192 .f32) (j : S128x1.Idx) (r : Fin 4096)
    (h0 : ∀ k : Fin 8192, x0 (ix2 (j 0) k) = a0 (ix2 r k)) (h1 : ∀ k : Fin 8192, x1 (ix2 (j 0) k) = a1 (ix2 r k)) :
    k0_pay1 (F := Ideal) x0 x1 j = rowLoss a0 a1 r := by
  refine ((congrArg (k0_pay1 (F := Ideal) x0 x1) (eq_ix2 j)).trans (pay_apply x0 x1 (j 0) (j 1))).trans ?_
  unfold rowLoss
  simp only [h0, h1]

/-- WHAT POINT `t` WRITES BACK is block `t` of the column of the rows' losses. -/
theorem flushed_eq (c : Dev nD) (t : Fin cfg0.N) :
    (dats m 0 c).flushed 2 t = ((cfg0.win 2).blk t).view.read (Elt Ideal) (lossColumn m c) := by
  show (cfg0.win 2).cut (grid0.coords t) ((dats m 0 c).after 2 t) = _
  rw [after0_2]
  unfold out0_2
  rw [View.canon_unit_zero zero_off]
  simp only [View.ld_unit_zero (S := S128x8192) zero_off]
  obtain ⟨e0, e1, e2, e3, e4, e5⟩ := idx_facts t
  funext j
  show k0_pay1 (F := Ideal) (iblk m c 0 t) (iblk m c 1 t) j
    = rowLoss (V m c main_arg0) (V m c main_arg1) ((((cfg0.win 2).blk t).view.emb j) 0)
  refine block_row (iblk m c 0 t) (iblk m c 1 t) (V m c main_arg0) (V m c main_arg1) j _ ?_ ?_
  · intro k
    show V m c main_arg0 (((cfg0.win 0).blk t).view.emb (ix2 (j 0) k)) = V m c main_arg0 (ix2 ((((cfg0.win 2).blk t).view.emb j) 0) k)
    refine congrArg (V m c main_arg0) (funext fun a => Fin.ext ?_)
    match a with
    | ⟨0, _⟩ => show win0_0.index t (0 : Fin 2) * 128 + 1 * (j 0).val = win0_2.index t (0 : Fin 2) * 128 + 1 * (j 0).val; omega
    | ⟨1, _⟩ => show win0_0.index t (1 : Fin 2) * 8192 + 1 * k.val = k.val; omega
  · intro k
    show V m c main_arg1 (((cfg0.win 1).blk t).view.emb (ix2 (j 0) k)) = V m c main_arg1 (ix2 ((((cfg0.win 2).blk t).view.emb j) 0) k)
    refine congrArg (V m c main_arg1) (funext fun a => Fin.ext ?_)
    match a with
    | ⟨0, _⟩ => show win0_1.index t (0 : Fin 2) * 128 + 1 * (j 0).val = win0_2.index t (0 : Fin 2) * 128 + 1 * (j 0).val; omega
    | ⟨1, _⟩ => show win0_1.index t (1 : Fin 2) * 8192 + 1 * k.val = k.val; omega

/-- An index of the column is in point `t`'s block iff each coordinate is in the block's range on its axis. -/
theorem mem_blk (t : Fin cfg0.N) (i : S4096x1.Idx) :
    i ∈ ((cfg0.win 2).blk t).view.set ↔ ∀ a : Fin 2, win0_2.index t a * S128x1.size a ≤ (i a).val ∧ (i a).val < win0_2.index t a * S128x1.size a + S128x1.size a := by
  show i ∈ ((View.whole main_v0).slice (win0_2.rect t)).set ↔ _
  rw [View.set_slice_whole, Rect.mem_set_unit]
  exact Iff.rfl

/-- Row `r` is in the block of point r / 128. -/
theorem cover (i : S4096x1.Idx) : ∃ t : Fin cfg0.N, (cfg0.win 2).flush t = true ∧ i ∈ ((cfg0.win 2).blk t).view.set := by
  have hi0 : (i 0).val < 4096 := (i 0).isLt
  have hi1 : (i 1).val < 1 := (i 1).isLt
  obtain ⟨t, ht⟩ : ∃ t : Fin cfg0.N, t.val = (i 0).val / 128 :=
    ⟨⟨(i 0).val / 128, by show (i 0).val / 128 < grid0.N; rw [N_0]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 1 ≤ (i 1).val ∧ (i 1).val < win0_2.index t (1 : Fin 2) * 1 + 1; omega

/-- THE RESULT ARRAY after the run is the column of the rows' losses. -/
theorem column_final (c : Dev nD) : (dats m 0 c).arrAt 2 cfg0.N = lossColumn m c :=
  (dats m 0 c).arrAt_eq_of_cover 2 (lossColumn m c) (fun t _ => flushed_eq m c t) cover

end Cert.KernelIdeal.Rows

end
-- ==== Proof.KernelMean.lean ====
/-
  The kernel program's result.

  After the region the result array [4096, 1] holds the column of the rows' losses, and every other buffer what it
  held before. The four host operations that follow sum that column over both its axes into a scalar, from the zero
  initial value, and divide by 4096. A sum over the indices of a one-column array is the sum over its rows, so the
  scalar is the mean of the rows' losses; the argument arrays are left as they were.
-/
import proofs.«162491_j35304631173303_1_alg».proof.Proof.KernelColumn
import Idealize.ShloMosaic.Lib.StableHlo.Run

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Mean

open Cert.KernelIdeal Cert.KernelIdeal.Gen Cert.KernelIdeal.Rows Cert.Pearson

variable (m : (ℓ : Loc nD τ sig) → Buf (Elt Ideal) ℓ) (ρ : Dev nD → PrngReg)

/-- The column's sum over both axes, from zero, divided by 4096, is the mean of the rows' losses. -/
theorem tail_value (a0 a1 : FVec Ideal S4096x8192 .f32) :
    Host.divf (F := Ideal)
        (Host.reduceAdd (F := Ideal) (fun i : S4096x1.Idx => rowLoss a0 a1 (i 0)) (constant (F := Ideal) S_ .f32 0x00000000#32)
          reducesTo_S4096x1_S_d0_1 h_S_)
        (constant (F := Ideal) S_ .f32 0x45800000#32)
      = fun _ => meanLoss a0 a1 := by
  funext i
  simp only [Host.divf, Host.reduceAdd, Ideal.hostReduceAdd_def, Ideal.hostDivf_def, constant, Ideal.ofBits_def]
  rw [Ideal.hostReduceAdd_total reducesTo_S4096x1_S_d0_1 (fun b => b.elim0), sum_idx_col]
  simp only [Ideal.ofBits_zero_f32, zero_add]
  rfl

/-- What the host operations after the region leave in the result scalar. -/
theorem tail_eq (c : Dev nD) :
    Pipeline.afterTail₀ cfgs (dats m) 0 (V0 m) [hostOps1] c main_v2
      = fun _ => meanLoss (m ((c : Thread nD τ).loc main_arg0)) (m ((c : Thread nD τ).loc main_arg1)) := by
  unfold Pipeline.afterTail₀
  show StableHlo.after hostOps1 _ (Proc.devRef .tc main_v2) = _
  after_results
  have hcol : Pipeline.withArrays (cfgs 0).spec c (V0 m c) (fun w => (dats m 0 c).arrAt w (cfgs 0).N) (Proc.devRef .tc main_v0)
      = lossColumn m c :=
    (Pipeline.withArrays_arr spec0 launch0.win.arr_inj c _ _ 2).trans (column_final m c)
  rw [hcol]
  exact tail_value (V m c main_arg0) (V m c main_arg1)

/-- The result scalar is none of the region's arrays. -/
theorem result_rest : main_v2 ∈ Pipeline.restRefs sig (cfgs 0).spec :=
  Pipeline.mem_restRefs_of main_v2 rfl (fun w => by fin_cases w <;> decide)

/-- THE RUN: every weakly fair execution of the kernel program terminates with the result scalar at the mean of the rows'
    losses of the argument arrays, and the argument arrays unchanged. -/
theorem run : θ_run defs (onTc (τ := τ) (main (F := Ideal))) ⟨m, fun _ => 0, ρ⟩ fun r => ∀ c : Dev nD,
      r.2.mem ((c.tc : Thread nD τ).loc main_v2)
        = (fun _ => meanLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v2 result_rest).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Mean

end
-- ==== Proof.ReferenceMean.lean ====
/-
  The reference computes the mean of the rows' losses.

  Its program is read one operation at a time: five sums along each row (of x, of y, of x·y, x·x and y·y, each the zero
  initial value plus a sum over the 8192 columns), the products with n = 8192, the two differences under the square root,
  the quotient, one minus it, then the sum of the 4096 values into a scalar and the quotient by 4096. Read at row `r`
  the vector before the last sum is exactly the row formula of the two argument arrays; the sum over the vector's
  indices is the sum over its one coordinate.
-/
import proofs.«162491_j35304631173303_1_alg».proof.Proof.Gen.ReferenceIdeal.Read
import proofs.«162491_j35304631173303_1_alg».proof.Proof.RowLoss

noncomputable section

open Idealize.ShloMosaic Idealize.ShloMosaic.ValueIdx

namespace Cert.ReferenceIdeal.RefValue

open Cert.ReferenceIdeal Cert.ReferenceIdeal.Gen Cert.ReferenceIdeal.Read Cert.Pearson

/-- The index a row sum reads at column `k` of row `r` is `(r, k)`. -/
theorem idx_row (r : Fin 4096) (k : Fin 8192) : idx_main_v0 (ix1 r) k = ix2 r k :=
  funext fun a => Fin.ext (by match a with | ⟨0, _⟩ => rfl | ⟨1, _⟩ => rfl)

/-- The vector the reference sums at the end holds, at row `r`, the row's loss. -/
theorem row_eq (x0 x1 : (⟨S4096x8192, .f32⟩ : BufTy).Contents (Elt Ideal)) (r : Fin 4096) :
    val_main_v24 (F := Ideal) x0 x1 (ix1 r) = rowLoss x0 x1 r := by
  have e0 : ∀ k, idx_main_v0 (ix1 r) k = ix2 r k := idx_row r
  have e1 : ∀ k, idx_main_v1 (ix1 r) k = ix2 r k := idx_row r
  have e3 : ∀ k, idx_main_v3 (ix1 r) k = ix2 r k := idx_row r
  have e5 : ∀ k, idx_main_v5 (ix1 r) k = ix2 r k := idx_row r
  have e7 : ∀ k, idx_main_v7 (ix1 r) k = ix2 r k := idx_row r
  rw [val_main_v24_apply, val_main_v23_apply, val_main_cst_7_apply, val_main_v22_apply, val_main_v21_apply,
    val_main_v20_apply, val_main_v19_apply, val_main_v18_apply, val_main_v17_apply, val_main_v16_apply,
    val_main_cst_6_apply, val_main_v15_apply, val_main_v14_apply, val_main_v13_apply, val_main_v12_apply,
    val_main_cst_5_apply, val_main_v11_apply, val_main_v10_apply, val_main_v9_apply, val_main_v8_apply,
    val_main_cst_4_apply, val_main_v7_apply, val_main_v5_apply, val_main_v3_apply, val_main_v1_apply, val_main_v0_apply]
  simp only [val_main_v6_apply, val_main_v4_apply, val_main_v2_apply, val_main_cst_3_apply, val_main_cst_2_apply,
    val_main_cst_1_apply, val_main_cst_0_apply, val_main_cst_apply, e0, e1, e3, e5, e7,
    Ideal.ofBits_def, Ideal.subf_def, Ideal.mulf_def, Ideal.hostDivf_def, Ideal.hostUnary_sqrt_def,
    Ideal.ofBits_zero_f32, zero_add]
  rfl

/-- The reference's result is the mean of the rows' losses. -/
theorem result_eq (x0 x1 : (⟨S4096x8192, .f32⟩ : BufTy).Contents (Elt Ideal)) :
    val_main_v26 (F := Ideal) x0 x1 = fun _ => meanLoss x0 x1 := by
  funext i
  rw [val_main_v26_apply, val_main_v25_apply, val_main_cst_8_apply, val_main_cst_9_apply, sum_idx1]
  simp only [row_eq, Ideal.hostDivf_def, Ideal.ofBits_def, Ideal.ofBits_zero_f32, zero_add]
  rfl

end Cert.ReferenceIdeal.RefValue

end
-- ==== Proof.lean ====
/-
  The kernel program and its reference compute the same number: the mean, over 4096 rows, of one minus the row's
  correlation coefficient.

  For a row with entries x_k, y_k (k < 8192), n = 8192, and the five sums Sx, Sy, Sxy, Sxx, Syy of x, y, x·y, x·x, y·y, the
  row's loss is 1 − (n·Sxy − Sx·Sy) / √((n·Sxx − Sx²)·(n·Syy − Sy²)) on the extended reals, and the result is the sum of
  the rows' losses divided by 4096 (Proof/RowLoss.lean). The reference evaluates this on the whole arrays
  (Proof/ReferenceMean.lean). The kernel evaluates it 128 rows at a time: at each of 32 grid points it reduces a
  [128, 8192] block of each argument along the lanes and stores a [128, 1] column of losses (Proof/BlockLoss.lean); the
  32 columns tile the [4096, 1] result, which therefore holds every row's loss (Proof/KernelColumn.lean); the host
  operations after the region sum it and divide by 4096 (Proof/KernelMean.lean). Both sides apply the same operations
  with the same constants in the same order, and the square root and the quotient are the same extended-real functions
  in the kernel and on the host; the two differ only in how the sums are laid out, and a sum of extended reals does not
  depend on the enumeration of its index set. So the two results are equal for all inputs, and the finiteness of the
  inputs is not used.

  The three frame claims: the two kernel programs by their frame certificates, the reference by its run with the result
  dropped. The idealization changed no operation, so there is nothing to preserve.
-/
import proofs.«162491_j35304631173303_1_alg».proof.Defs
import proofs.«162491_j35304631173303_1_alg».proof.Proof.Gen.Kernel
import proofs.«162491_j35304631173303_1_alg».proof.Proof.Gen.Kernel.Skeleton
import proofs.«162491_j35304631173303_1_alg».proof.Proof.Gen.Kernel.Launch
import proofs.«162491_j35304631173303_1_alg».proof.Proof.Gen.Kernel.Points
import proofs.«162491_j35304631173303_1_alg».proof.Proof.Gen.Kernel.Frame
import proofs.«162491_j35304631173303_1_alg».proof.Proof.Gen.KernelIdeal
import proofs.«162491_j35304631173303_1_alg».proof.Proof.Gen.KernelIdeal.Skeleton
import proofs.«162491_j35304631173303_1_alg».proof.Proof.Gen.KernelIdeal.Launch
import proofs.«162491_j35304631173303_1_alg».proof.Proof.Gen.KernelIdeal.Points
import proofs.«162491_j35304631173303_1_alg».proof.Proof.Gen.KernelIdeal.Frame
import proofs.«162491_j35304631173303_1_alg».proof.Proof.Gen.ReferenceIdeal
import proofs.«162491_j35304631173303_1_alg».proof.Proof.Gen.Pre_finite_inputs
import proofs.«162491_j35304631173303_1_alg».proof.Proof.Gen.ReferenceIdeal.Run
import proofs.«162491_j35304631173303_1_alg».proof.Proof.Gen.ReferenceIdeal.Read
import proofs.«162491_j35304631173303_1_alg».proof.Proof.KernelMean
import proofs.«162491_j35304631173303_1_alg».proof.Proof.ReferenceMean
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the two argument arrays, both programs end with the result scalar at the mean of the rows'
    losses of those arrays: the kernel program by its run, the reference by its run read as that mean. -/
theorem algebraic : Cert.algebraic_KernelIdeal_ReferenceIdeal := by
  intro m ρ m' ρ' _ hagree
  refine ⟨fun c => fun _ => Cert.Pearson.meanLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Mean.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
